-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x441x128x128 : Shape := ⟨4, ![8, 441, 128, 128]⟩
abbrev S8x2x128x128 : Shape := ⟨4, ![8, 2, 128, 128]⟩
abbrev S_ : Shape := ⟨0, ![]⟩

class Facts : Prop where
  bcast_S_S8x441x128x128 : S_.BroadcastsInDim S8x441x128x128 (![] : Fin 0 → Fin S8x441x128x128.rank)
  reducesTo_S8x441x128x128_S_d0_1_2_3 : S8x441x128x128.ReducesTo [0, 1, 2, 3] S_
  h_S_ : 0 < S_.numel
  bcast_S_S8x2x128x128 : S_.BroadcastsInDim S8x2x128x128 (![] : Fin 0 → Fin S8x2x128x128.rank)
  reducesTo_S8x2x128x128_S_d0_1_2_3 : S8x2x128x128.ReducesTo [0, 1, 2, 3] S_

variable [Facts]

def fn {F : FTy → Type} [FloatOps F] (main_arg0 : FVec F S8x441x128x128 .f32) (main_arg1 : FVec F S8x2x128x128 .f32) : IVec S_ 1 :=
  let main_v0 : FVec F S8x441x128x128 .f32 := Host.absf main_arg0
  let main_cst : FVec F S_ .f32 := constant S_ .f32 0x7F800000#32
  let main_v1 : FVec F S8x441x128x128 .f32 := broadcastInDim S8x441x128x128 ![] bcast_S_S8x441x128x128 main_cst
  let main_v2 : IVec S8x441x128x128 1 := cmpf .olt main_v0 main_v1
  let main_c : IVec S_ 1 := constantI S_ 1 1#1
  let main_v3 : IVec S_ 1 := (fun x v => Host.reduce IntOp.andi x v reducesTo_S8x441x128x128_S_d0_1_2_3 h_S_) main_v2 main_c
  let main_v4 : FVec F S8x2x128x128 .f32 := Host.absf main_arg1
  let main_cst_0 : FVec F S_ .f32 := constant S_ .f32 0x7F800000#32
  let main_v5 : FVec F S8x2x128x128 .f32 := broadcastInDim S8x2x128x128 ![] bcast_S_S8x2x128x128 main_cst_0
  let main_v6 : IVec S8x2x128x128 1 := cmpf .olt main_v4 main_v5
  let main_c_1 : IVec S_ 1 := constantI S_ 1 1#1
  let main_v7 : IVec S_ 1 := (fun x v => Host.reduce IntOp.andi x v reducesTo_S8x2x128x128_S_d0_1_2_3 h_S_) main_v6 main_c_1
  let main_v8 : IVec S_ 1 := andi main_v3 main_v7
  main_v8
-- ==== Kernel.lean ====
abbrev S8x441x128x128 : Shape := ⟨4, ![8, 441, 128, 128]⟩
abbrev S8x2x128x128 : Shape := ⟨4, ![8, 2, 128, 128]⟩
abbrev S_ : Shape := ⟨0, ![]⟩
abbrev S8x1x128x128 : Shape := ⟨4, ![8, 1, 128, 128]⟩
abbrev S8x128x128 : Shape := ⟨3, ![8, 128, 128]⟩
abbrev S8x1x128 : Shape := ⟨3, ![8, 1, 128]⟩
abbrev S1x128x128 : Shape := ⟨3, ![1, 128, 128]⟩
abbrev S1x147x128x128 : Shape := ⟨4, ![1, 147, 128, 128]⟩
abbrev S1x1x128 : Shape := ⟨3, ![1, 1, 128]⟩
abbrev S1x128 : Shape := ⟨2, ![1, 128]⟩
abbrev S147x128x128 : Shape := ⟨3, ![147, 128, 128]⟩
abbrev S128x128 : Shape := ⟨2, ![128, 128]⟩
abbrev S147x1x1 : Shape := ⟨3, ![147, 1, 1]⟩
abbrev S128 : Shape := ⟨1, ![128]⟩
abbrev S8x128 : Shape := ⟨2, ![8, 128]⟩

abbrev nBuf : Space → Nat
  | .hbm => 30
  | .vmem => 7
  | .smem => 0
  | _ => 0

abbrev bufTy : (tb : Table) → Fin (tcTables nBuf tb) → BufTy
  | .hbm, ⟨0, _⟩ => ⟨S8x441x128x128, .f32⟩
  | .hbm, ⟨1, _⟩ => ⟨S8x2x128x128, .f32⟩
  | .hbm, ⟨2, _⟩ => ⟨S_, .f32⟩
  | .hbm, ⟨3, _⟩ => ⟨S8x2x128x128, .f32⟩
  | .hbm, ⟨4, _⟩ => ⟨S8x2x128x128, .f32⟩
  | .hbm, ⟨5, _⟩ => ⟨S_, .f32⟩
  | .hbm, ⟨6, _⟩ => ⟨S8x2x128x128, .f32⟩
  | .hbm, ⟨7, _⟩ => ⟨S8x2x128x128, .f32⟩
  | .hbm, ⟨8, _⟩ => ⟨S8x2x128x128, .f32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S8x2x128x128, .f32⟩
  | .hbm, ⟨13, _⟩ => ⟨S8x2x128x128, .f32⟩
  | .hbm, ⟨14, _⟩ => ⟨S_, .f32⟩
  | .hbm, ⟨15, _⟩ => ⟨S8x2x128x128, .f32⟩
  | .hbm, ⟨16, _⟩ => ⟨S8x2x128x128, .f32⟩
  | .hbm, ⟨17, _⟩ => ⟨S8x2x128x128, .i32⟩
  | .hbm, ⟨18, _⟩ => ⟨S8x1x128x128, .i32⟩
  | .hbm, ⟨19, _⟩ => ⟨S8x128x128, .i32⟩
  | .hbm, ⟨20, _⟩ => ⟨S_, .i32⟩
  | .hbm, ⟨21, _⟩ => ⟨S8x128x128, .i32⟩
  | .hbm, ⟨22, _⟩ => ⟨S8x128x128, .i32⟩
  | .hbm, ⟨23, _⟩ => ⟨S8x1x128x128, .i32⟩
  | .hbm, ⟨24, _⟩ => ⟨S8x128x128, .i32⟩
  | .hbm, ⟨25, _⟩ => ⟨S8x128x128, .i32⟩
  | .hbm, ⟨26, _⟩ => ⟨S8x1x128, .f32⟩
  | .hbm, ⟨27, _⟩ => ⟨S8x128, .f32⟩
  | .hbm, ⟨28, _⟩ => ⟨S_, .f32⟩
  | .hbm, ⟨29, _⟩ => ⟨S128, .f32⟩
  | .local _ .vmem, ⟨0, _⟩ => ⟨S1x128x128, .i32⟩
  | .local _ .vmem, ⟨1, _⟩ => ⟨S1x128x128, .i32⟩
  | .local _ .vmem, ⟨2, _⟩ => ⟨S1x147x128x128, .f32⟩
  | .local _ .vmem, ⟨3, _⟩ => ⟨S1x147x128x128, .f32⟩
  | .local _ .vmem, ⟨4, _⟩ => ⟨S1x1x128, .f32⟩
  | .local _ .vmem, ⟨5, _⟩ => ⟨S1x1x128, .f32⟩
  | .local _ .vmem, ⟨6, _⟩ => ⟨S1x128, .f32⟩
  | _, _ => ⟨S8x441x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v25 : BitVec 1 := Scalar.cmpi .eq arg1 c2_i32
  let v26 : BitVec 32 := Scalar.extui v25
  let c0_i32_12 : BitVec 32 := 0#32
  let v27 : BitVec 1 := Scalar.cmpi .ne v26 c0_i32_12
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x147x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S8x2x128x128 : S_.BroadcastsInDim S8x2x128x128 (![] : Fin 0 → Fin S8x2x128x128.rank)
  slices_S8x2x128x128_S8x1x128x128_0_0_0_0 : S8x2x128x128.Slices ![0, 0, 0, 0] S8x1x128x128
  shapeCasts_S8x1x128x128_S8x128x128 : S8x1x128x128.ShapeCasts S8x128x128
  bcast_S_S8x128x128 : S_.BroadcastsInDim S8x128x128 (![] : Fin 0 → Fin S8x128x128.rank)
  slices_S8x2x128x128_S8x1x128x128_0_1_0_0 : S8x2x128x128.Slices ![0, 1, 0, 0] S8x1x128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x147x128x128_S1x147x128x128_0_0_0_0 : ∀ a, (![0, 0, 0, 0] : Fin 4 → Nat) a + S1x147x128x128.size a ≤ S1x147x128x128.size a
  h_S1x147x128x128 : 0 < S1x147x128x128.numel
  shapeCasts_S1x147x128x128_S147x128x128 : S1x147x128x128.ShapeCasts S147x128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  iota_S147x1x1_d0_w32 : S147x1x1.Iotas .tc 32 [0]
  shapeCasts_S128x128_S1x128x128 : S128x128.ShapeCasts S1x128x128
  broadcasts_S1x128x128_S147x128x128 : S1x128x128.Broadcasts S147x128x128
  broadcasts_S147x1x1_S147x128x128 : S147x1x1.Broadcasts S147x128x128
  reduces_S147x128x128_S128 : S147x128x128.Reduces [0, 1] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S8x1x128_S8x128 : S8x1x128.ShapeCasts S8x128
  reducesTo_S8x128_S128_d0 : S8x128.ReducesTo [0] S128
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S8x128x128.size a
  hwx0_0 : ∀ i : grid0.Coords, EltTy.bits .i32 = 32 ∨ (Rect.block (s := S8x128x128) S1x128x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x147x128x128.size a ≤ S8x441x128x128.size a
  hwx0_1 : ∀ i : grid0.Coords, EltTy.bits .f32 = 32 ∨ (Rect.block (s := S8x441x128x128) S1x147x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)

variable [Facts₀]

abbrev win0_0 : Pipeline.Window sig grid0 :=
  Pipeline.Window.ofSpec (Memref.whole main_v13) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x147x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x441x128x128 : Shape := ⟨4, ![8, 441, 128, 128]⟩
abbrev S8x2x128x128 : Shape := ⟨4, ![8, 2, 128, 128]⟩
abbrev S_ : Shape := ⟨0, ![]⟩
abbrev S8x1x128x128 : Shape := ⟨4, ![8, 1, 128, 128]⟩
abbrev S8x128x128 : Shape := ⟨3, ![8, 128, 128]⟩
abbrev S8x1x128x128x1 : Shape := ⟨5, ![8, 1, 128, 128, 1]⟩
abbrev S1 : Shape := ⟨1, ![1]⟩
abbrev S1x1x1x1x1 : Shape := ⟨5, ![1, 1, 1, 1, 1]⟩
abbrev S128 : Shape := ⟨1, ![128]⟩

abbrev nBuf : Space → Nat
  | .hbm => 53
  | .vmem => 0
  | .smem => 0
  | _ => 0

abbrev bufTy : (tb : Table) → Fin (tcTables nBuf tb) → BufTy
  | .hbm, ⟨0, _⟩ => ⟨S8x441x128x128, .f32⟩
  | .hbm, ⟨1, _⟩ => ⟨S8x2x128x128, .f32⟩
  | .hbm, ⟨2, _⟩ => ⟨S_, .f32⟩
  | .hbm, ⟨3, _⟩ => ⟨S8x2x128x128, .f32⟩
  | .hbm, ⟨4, _⟩ => ⟨S8x2x128x128, .f32⟩
  | .hbm, ⟨5, _⟩ => ⟨S_, .f32⟩
  | .hbm, ⟨6, _⟩ => ⟨S8x2x128x128, .f32⟩
  | .hbm, ⟨7, _⟩ => ⟨S8x2x128x128, .f32⟩
  | .hbm, ⟨8, _⟩ => ⟨S8x2x128x128, .f32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S8x2x128x128, .f32⟩
  | .hbm, ⟨13, _⟩ => ⟨S8x2x128x128, .f32⟩
  | .hbm, ⟨14, _⟩ => ⟨S_, .f32⟩
  | .hbm, ⟨15, _⟩ => ⟨S8x2x128x128, .f32⟩
  | .hbm, ⟨16, _⟩ => ⟨S8x2x128x128, .f32⟩
  | .hbm, ⟨17, _⟩ => ⟨S8x2x128x128, .i32⟩
  | .hbm, ⟨18, _⟩ => ⟨S8x1x128x128, .i32⟩
  | .hbm, ⟨19, _⟩ => ⟨S8x128x128, .i32⟩
  | .hbm, ⟨20, _⟩ => ⟨S_, .i32⟩
  | .hbm, ⟨21, _⟩ => ⟨S8x128x128, .i32⟩
  | .hbm, ⟨22, _⟩ => ⟨S8x128x128, .i32⟩
  | .hbm, ⟨23, _⟩ => ⟨S8x1x128x128, .i32⟩
  | .hbm, ⟨24, _⟩ => ⟨S8x128x128, .i32⟩
  | .hbm, ⟨25, _⟩ => ⟨S8x128x128, .i32⟩
  | .hbm, ⟨26, _⟩ => ⟨S8x441x128x128, .f32⟩
  | .hbm, ⟨27, _⟩ => ⟨S8x1x128x128, .i32⟩
  | .hbm, ⟨28, _⟩ => ⟨S_, .i32⟩
  | .hbm, ⟨29, _⟩ => ⟨S8x1x128x128, .i32⟩
  | .hbm, ⟨30, _⟩ => ⟨S8x1x128x128, .i1⟩
  | .hbm, ⟨31, _⟩ => ⟨S_, .i32⟩
  | .hbm, ⟨32, _⟩ => ⟨S8x1x128x128, .i32⟩
  | .hbm, ⟨33, _⟩ => ⟨S8x1x128x128, .i32⟩
  | .hbm, ⟨34, _⟩ => ⟨S8x1x128x128, .i32⟩
  | .hbm, ⟨35, _⟩ => ⟨S8x1x128x128x1, .i32⟩
  | .hbm, ⟨36, _⟩ => ⟨S1, .i32⟩
  | .hbm, ⟨37, _⟩ => ⟨S_, .i32⟩
  | .hbm, ⟨38, _⟩ => ⟨S8x1x128x128x1, .i32⟩
  | .hbm, ⟨39, _⟩ => ⟨S8x1x128x128x1, .i1⟩
  | .hbm, ⟨40, _⟩ => ⟨S1x1x1x1x1, .i32⟩
  | .hbm, ⟨41, _⟩ => ⟨S8x1x128x128x1, .i32⟩
  | .hbm, ⟨42, _⟩ => ⟨S8x1x128x128x1, .i1⟩
  | .hbm, ⟨43, _⟩ => ⟨S8x1x128x128x1, .i1⟩
  | .hbm, ⟨44, _⟩ => ⟨S_, .i1⟩
  | .hbm, ⟨45, _⟩ => ⟨S8x1x128x128, .i1⟩
  | .hbm, ⟨46, _⟩ => ⟨S8x1x128x128, .f32⟩
  | .hbm, ⟨47, _⟩ => ⟨S_, .f32⟩
  | .hbm, ⟨48, _⟩ => ⟨S8x1x128x128, .f32⟩
  | .hbm, ⟨49, _⟩ => ⟨S8x1x128x128, .f32⟩
  | .hbm, ⟨50, _⟩ => ⟨S_, .f32⟩
  | .hbm, ⟨51, _⟩ => ⟨S128, .f32⟩
  | .hbm, ⟨52, _⟩ => ⟨S128, .f32⟩
  | _, _ => ⟨S8x441x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v16 : Ref sig .tc := ⟨.hbm, 49, rfl⟩
abbrev main_cst_3 : Ref sig .tc := ⟨.hbm, 50, rfl⟩
abbrev main_v17 : Ref sig .tc := ⟨.hbm, 51, rfl⟩
abbrev main_v18 : Ref sig .tc := ⟨.hbm, 52, rfl⟩

abbrev nD : Nat := 1
abbrev τ : Topo := Topo.v7x

variable {F : FTy → Type} [FloatOps F]

class Facts₀ : Prop where
  bcast_S_S8x2x128x128 : S_.BroadcastsInDim S8x2x128x128 (![] : Fin 0 → Fin S8x2x128x128.rank)
  slices_S8x2x128x128_S8x1x128x128_0_0_0_0 : S8x2x128x128.Slices ![0, 0, 0, 0] S8x1x128x128
  shapeCasts_S8x1x128x128_S8x128x128 : S8x1x128x128.ShapeCasts S8x128x128
  bcast_S_S8x128x128 : S_.BroadcastsInDim S8x128x128 (![] : Fin 0 → Fin S8x128x128.rank)
  slices_S8x2x128x128_S8x1x128x128_0_1_0_0 : S8x2x128x128.Slices ![0, 1, 0, 0] S8x1x128x128
  bcast_S8x128x128_S8x1x128x128_0_2_3 : S8x128x128.BroadcastsInDim S8x1x128x128 (![0, 2, 3] : Fin 3 → Fin S8x1x128x128.rank)
  bcast_S_S8x1x128x128 : S_.BroadcastsInDim S8x1x128x128 (![] : Fin 0 → Fin S8x1x128x128.rank)
  shapeCasts_S8x1x128x128_S8x1x128x128x1 : S8x1x128x128.ShapeCasts S8x1x128x128x1
  bcast_S_S8x1x128x128x1 : S_.BroadcastsInDim S8x1x128x128x1 (![] : Fin 0 → Fin S8x1x128x128x1.rank)
  bcast_S1_S1x1x1x1x1_4 : S1.BroadcastsInDim S1x1x1x1x1 (![4] : Fin 1 → Fin S1x1x1x1x1.rank)
  bcast_S1x1x1x1x1_S8x1x128x128x1_0_1_2_3_4 : S1x1x1x1x1.BroadcastsInDim S8x1x128x128x1 (![0, 1, 2, 3, 4] : Fin 5 → Fin S8x1x128x128x1.rank)
  reducesTo_S8x1x128x128x1_S8x1x128x128_d4 : S8x1x128x128x1.ReducesTo [4] S8x1x128x128
  h_S_ : 0 < S_.numel
  reducesTo_S8x1x128x128_S128_d0_1_2 : S8x1x128x128.ReducesTo [0, 1, 2] S128
  gather_S8x441x128x128_S8x1x128x128x1_S8x1x128x128_n_1_023_023_1_4_1111_wf : GatherDims.WF S8x441x128x128 S8x1x128x128x1 S8x1x128x128 [] [1] [0, 2, 3] [1] [0, 2, 3] 4 ![1, 1, 1, 1]

variable [Facts₀]

def gather_S8x441x128x128_S8x1x128x128x1_S8x1x128x128_n_1_023_023_1_4_1111 : GatherDims S8x441x128x128 S8x1x128x128x1 S8x1x128x128 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x441x128x128_S8x1x128x128x1_S8x1x128x128_n_1_023_023_1_4_1111_wf

class Facts : Prop extends Facts₀ where

variable [Facts]
-- ==== Proof.RefIndex.lean ====
/-
  The bin index is below 441.

  Each colour channel's bin is the integer part of a value clamped between 0 and 20: min(20, max(0, ⌊(y + 110) / 10⌋)),
  whatever extended real `y` is (an infinity is clamped like any other value, and there is no NaN among the
  extended reals). Its conversion to a 32-bit integer is therefore one of the words 0, …, 20, and the combined
  index  a · 21 + b  of two such words is at most 20 · 21 + 20 = 440, with no wrap-around in 32 bits.
-/
import proofs.«143988_j67791763800580_1_alg».proof.Proof.RefRead
import Idealize.ShloMosaic.PureOps.Ideal
import Idealize.ShloMosaic.PureOps.Ideal.Laws

noncomputable section

namespace Cert.ReferenceIdeal.RefIndex

open Cert.ReferenceIdeal Cert.ReferenceIdeal.Gen Cert.ReferenceIdeal.ReadP Idealize.ShloMosaic

/-- The integer conversion of an extended real clamped between 0 and 20 is one of the words 0, …, 20. -/
theorem fptosi_clamp_le (v : EReal) :
    (Ideal.fptosi 32 (min (((20 : ℤ) : ℝ) : EReal) (max (((0 : ℤ) : ℝ) : EReal) v))).toNat ≤ 20 := by
  set c : EReal := min (((20 : ℤ) : ℝ) : EReal) (max (((0 : ℤ) : ℝ) : EReal) v) with hc
  have h0 : (((0 : ℤ) : ℝ) : EReal) ≤ c := le_min (by exact_mod_cast (by norm_num : ((0 : ℤ) : ℝ) ≤ ((20 : ℤ) : ℝ))) (le_max_left _ _)
  have h20 : c ≤ (((20 : ℤ) : ℝ) : EReal) := min_le_left _ _
  have hbot : c ≠ ⊥ := fun e => by rw [e] at h0; exact absurd h0 (by simp)
  have htop : c ≠ ⊤ := fun e => by rw [e] at h20; exact absurd h20 (by simp)
  obtain ⟨r, hr⟩ : ∃ r : ℝ, c = (r : EReal) := ⟨c.toReal, (EReal.coe_toReal htop hbot).symm⟩
  rw [hr] at h0 h20 ⊢
  have r0 : (0 : ℝ) ≤ r := by exact_mod_cast h0
  have r20 : r ≤ 20 := by exact_mod_cast h20
  have k0 : 0 ≤ ⌊r⌋ := Int.floor_nonneg.mpr r0
  have k20 : ⌊r⌋ < 21 := Int.floor_lt.mpr (by push_cast; linarith)
  rw [Ideal.fptosi, Ideal.toIntClamped_coe, if_pos r0, BitVec.toNat_ofInt]
  norm_num
  omega

/-- Every entry of the converted, clamped channel array is one of the words 0, …, 20. -/
theorem chan_le (y : (⟨S8x2x128x128, .f32⟩ : BufTy).Contents (Elt Ideal)) (i : S8x2x128x128.Idx) :
    (val_main_v6 (F := Ideal) y i).toNat ≤ 20 := by
  rw [val_main_v6_apply, val_main_v5_apply, val_main_call0_v4_apply, val_main_call0_v3_apply, val_main_c_1_apply,
    val_main_call0_v2_apply, val_main_call0_v1_apply, val_main_call0_v0_apply, val_main_c_apply]
  exact fptosi_clamp_le _

/-- The combined bin index a · 21 + b is below 441. -/
theorem idx_lt (y : (⟨S8x2x128x128, .f32⟩ : BufTy).Contents (Elt Ideal)) (i : S8x128x128.Idx) :
    (val_main_v13 (F := Ideal) y i).toNat < 441 := by
  rw [val_main_v13_apply, val_main_v10_apply, val_main_v8_apply, val_main_v7_apply, val_main_v9_apply,
    val_main_c_2_apply, val_main_v12_apply, val_main_v11_apply]
  have ha := chan_le y (idx_main_v7 (idx_main_v8 i))
  have hb := chan_le y (idx_main_v11 (idx_main_v12 i))
  unfold IntOp.addi IntOp.muli
  rw [BitVec.toNat_add, BitVec.toNat_mul]
  show ((val_main_v6 (F := Ideal) y (idx_main_v7 (idx_main_v8 i))).toNat * 21 % 2 ^ 32
    + (val_main_v6 (F := Ideal) y (idx_main_v11 (idx_main_v12 i))).toNat) % 2 ^ 32 < 441
  rw [Nat.mod_eq_of_lt (a := (val_main_v6 (F := Ideal) y (idx_main_v7 (idx_main_v8 i))).toNat * 21) (by omega),
    Nat.mod_eq_of_lt (by omega)]
  omega

end Cert.ReferenceIdeal.RefIndex

end
-- ==== Proof.HistSpec.lean ====
/-
  The mathematics of the histogram cross-entropy sum, free of either program.

  For probabilities `x[n, q, h, w]` (8 × 441 × 128 × 128) and a bin index `idx[n, h, w]` (a 32-bit word), the
  result at lane `w` is  −Σₙ Σₕ log x[n, idx[n,h,w], h, w].  It is written here without any range hypothesis on
  the index, as a ONE-HOT sum over the 441 bins: `pick` at (n, h, w) adds, over every bin `q`, `log x[n,q,h,w]`
  where the word `idx[n,h,w]` is the word of `q`, and `0` elsewhere.

  Two readings meet it. The kernel streams the bins in three chunks of 147 and adds, per chunk, the masked
  logarithms over (bin in chunk, h): its three partial sums add up to Σₕ pick (`parts_eq`: a re-indexing of
  Fin 441 as 3 × 147 and an exchange of finite sums, which is free on the extended reals), it negates per n
  and the host adds over n. The reference gathers the one bin the index names (`pick_of_lt`: when the word is
  below 441 the one-hot sum has one term), adds over (n, h) and negates once. Negation distributes over a sum
  of extended reals only when no term is +∞ (−(⊤ + ⊥) = ⊤ but −⊤ + −⊥ = ⊥): `neg_sum`, which is where the
  finiteness of `x` is used (the logarithm of a finite number is never +∞).
-/
import Idealize.ShloMosaic.Lib.ValueIdx
import Idealize.ShloMosaic.PureOps.Ideal.Laws

noncomputable section

open scoped BigOperators

namespace Cert.HistSpec

open Idealize.ShloMosaic Idealize.ShloMosaic.ValueIdx

/-! ## Extended reals: sums without +∞ -/

/-- A finite sum of extended reals none of which is +∞ is not +∞. -/
theorem sum_ne_top {ι : Type*} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self a s)) (ih fun i hi => h i (Finset.mem_insert_of_mem hi))

/-- Negation distributes over a finite sum of extended reals none of which is +∞. -/
theorem neg_sum {ι : Type*} (s : Finset ι) (f : ι → EReal) (h : ∀ i ∈ s, f i ≠ ⊤) :
    -(∑ i ∈ s, f i) = ∑ i ∈ s, -(f i) := by
  classical
  induction s using Finset.induction_on with
  | empty => simp
  | insert a s ha ih =>
    have hs : ∀ i ∈ s, f i ≠ ⊤ := fun i hi => h i (Finset.mem_insert_of_mem hi)
    rw [Finset.sum_insert ha, Finset.sum_insert ha,
      EReal.neg_add (Or.inr (sum_ne_top s f hs)) (Or.inl (h a (Finset.mem_insert_self a s))), sub_eq_add_neg, ih hs]

/-! ## The bins as three chunks of 147 -/

/-- A sum over the 441 bins is the sum over the three chunks of the sum over a chunk's 147 bins. -/
theorem sum_bins {M : Type*} [AddCommMonoid M] (g : Fin 441 → M) :
    ∑ Q, g Q = ∑ q : Fin 3, ∑ t : Fin 147, g ⟨147 * q.val + t.val, by have := q.isLt; have := t.isLt; omega⟩ := by
  rw [← Equiv.sum_comp (finProdFinEquiv : Fin 3 × Fin 147 ≃ Fin 441) g, Fintype.sum_prod_type]
  refine Finset.sum_congr rfl fun q _ => Finset.sum_congr rfl fun t _ => ?_
  congr 1
  apply Fin.ext
  show t.val + 147 * q.val = 147 * q.val + t.val
  omega

/-! ## The value -/

abbrev SX : Shape := ⟨4, ![8, 441, 128, 128]⟩
abbrev SI : Shape := ⟨3, ![8, 128, 128]⟩
abbrev SO : Shape := ⟨1, ![128]⟩

/-- The logarithm of the probability of the bin the index word names at (n, h, w), as a one-hot sum over the bins. -/
def pick (x : SX.Idx → EReal) (idx : SI.Idx → BitVec 32) (n : Fin 8) (h w : Fin 128) : EReal :=
  ∑ q : Fin 441, if idx (ix3 n h w) = BitVec.ofNat 32 q.val then Ideal.log (x (ix4 n q h w)) else 0

/-- The result at lane `w`: minus the sum over (n, h) of the picked logarithms. -/
def total (x : SX.Idx → EReal) (idx : SI.Idx → BitVec 32) (w : Fin 128) : EReal :=
  -(∑ n : Fin 8, ∑ h : Fin 128, pick x idx n h w)

/-- The result vector. -/
def G (x : SX.Idx → EReal) (idx : SI.Idx → BitVec 32) : SO.Idx → EReal := fun j => total x idx (j 0)

theorem G_apply (x : SX.Idx → EReal) (idx : SI.Idx → BitVec 32) (w : Fin 128) : G x idx (ix1 w) = total x idx w := rfl

/-- One chunk's contribution at (n, w): the masked logarithms over the chunk's 147 bins and the 128 rows. -/
def part (x : SX.Idx → EReal) (idx : SI.Idx → BitVec 32) (n : Fin 8) (q : Fin 3) (w : Fin 128) : EReal :=
  ∑ t : Fin 147, ∑ h : Fin 128,
    if idx (ix3 n h w) = BitVec.ofNat 32 (147 * q.val + t.val)
    then Ideal.log (x (ix4 n ⟨147 * q.val + t.val, by have := q.isLt; have := t.isLt; omega⟩ h w)) else 0

/-- The three chunks' contributions, added in the kernel's order from zero, are the sum over the rows of the picks. -/
theorem parts_eq (x : SX.Idx → EReal) (idx : SI.Idx → BitVec 32) (n : Fin 8) (w : Fin 128) :
    ((0 + part x idx n 0 w) + part x idx n 1 w) + part x idx n 2 w = ∑ h : Fin 128, pick x idx n h w := by
  have e : ∑ h : Fin 128, pick x idx n h w = ∑ q : Fin 3, part x idx n q w := by
    unfold pick part
    simp only [sum_bins]
    rw [Finset.sum_comm]
    refine Finset.sum_congr rfl fun q _ => ?_
    rw [Finset.sum_comm]
  rw [e, Fin.sum_univ_three, zero_add]

/-- No pick is +∞ when no logarithm is. -/
theorem pick_ne_top (x : SX.Idx → EReal) (idx : SI.Idx → BitVec 32) (hx : ∀ i, Ideal.log (x i) ≠ ⊤)
    (n : Fin 8) (h w : Fin 128) : pick x idx n h w ≠ ⊤ := by
  unfold pick
  refine sum_ne_top _ _ fun q _ => ?_
  split_ifs
  · exact hx _
  · exact EReal.zero_ne_top

/-- The kernel's closing steps — negate each n's sum (as `0 − ·`), then add over n from zero — give the total. -/
theorem neg_each_eq_total (x : SX.Idx → EReal) (idx : SI.Idx → BitVec 32) (hx : ∀ i, Ideal.log (x i) ≠ ⊤) (w : Fin 128) :
    0 + ∑ n : Fin 8, (0 - ∑ h : Fin 128, pick x idx n h w) = total x idx w := by
  unfold total
  rw [zero_add, neg_sum _ _ fun n _ => sum_ne_top _ _ fun h _ => pick_ne_top x idx hx n h w]
  refine Finset.sum_congr rfl fun n _ => ?_
  rw [zero_sub]

/-- When the index word at (n, h, w) is below 441 the pick is the logarithm at that bin. -/
theorem pick_of_lt (x : SX.Idx → EReal) (idx : SI.Idx → BitVec 32) (n : Fin 8) (h w : Fin 128)
    (hb : (idx (ix3 n h w)).toNat < 441) :
    pick x idx n h w = Ideal.log (x (ix4 n ⟨(idx (ix3 n h w)).toNat, hb⟩ h w)) := by
  unfold pick
  rw [Finset.sum_eq_single_of_mem (⟨(idx (ix3 n h w)).toNat, hb⟩ : Fin 441) (Finset.mem_univ _)]
  · rw [if_pos]
    exact BitVec.eq_of_toNat_eq (by rw [BitVec.toNat_ofNat]; exact (Nat.mod_eq_of_lt (by omega)).symm)
  · intro q _ hq
    rw [if_neg]
    intro e
    apply hq
    apply Fin.ext
    have := congrArg BitVec.toNat e
    rw [BitVec.toNat_ofNat, Nat.mod_eq_of_lt (by have := q.isLt; omega)] at this
    exact this.symm

end Cert.HistSpec

end
-- ==== Proof.LibSumAxes.lean ====
/-
  Sums over several LEADING axes, read at an index.

  A float `vector.multi_reduction <add>` over the two leading axes of a rank-3 vector, and a host
  `reduce … add` over the three leading axes of a rank-4 tensor (or the leading axis of a rank-2 one), are defined (at the ideal values) as the sum
  over the SET of source indices that drop to the result index. Here that set-indexed sum is rewritten as the
  iterated sum over the reduced axes' coordinates, the kept (last) coordinate fixed: the form a value proof
  rewrites term by term. The index sets of rank 3 and 4 are first identified with the products of their
  coordinate ranges.
-/
import Idealize.ShloMosaic.Lib.ValueIdx
import Idealize.ShloMosaic.Lib.IdealHost
import Idealize.ShloMosaic.PureOps.Ideal.Laws

noncomputable section

open scoped BigOperators

namespace Cert.LibSumAxes

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Dropping the two leading axes of a rank-3 index leaves its last coordinate. -/
theorem drop_lead2_val {a b c : Nat} (h : (⟨3, ![a, b, c]⟩ : Shape).Reduces [0, 1] ⟨1, ![c]⟩)
    (p : Fin a) (q : Fin b) (r : Fin c) : ((h.drop (ix3 p q r) 0 : Fin c) : ℕ) = r.val := rfl

theorem drop_lead2_iff {a b c : Nat} (h : (⟨3, ![a, b, c]⟩ : Shape).Reduces [0, 1] ⟨1, ![c]⟩)
    (p : Fin a) (q : Fin b) (r w : Fin c) : h.drop (ix3 p q r) = ix1 w ↔ r = w := by
  constructor
  · intro e
    have e0 := congrArg (fun k : (⟨1, ![c]⟩ : Shape).Idx => ((k 0 : Fin c) : ℕ)) e
    exact Fin.ext ((drop_lead2_val h p q r).symm.trans e0)
  · rintro rfl
    funext d
    match d with
    | ⟨0, _⟩ => exact Fin.ext (drop_lead2_val h p q r)

/-- A float sum over the two leading axes of a rank-3 vector, at the result index with coordinate `w`: the
    double sum over those axes' coordinates of the source at (p, q, w). -/
theorem reduceAdd_lead2 {a b c : Nat} (h : (⟨3, ![a, b, c]⟩ : Shape).Reduces [0, 1] ⟨1, ![c]⟩)
    (x : (⟨3, ![a, b, c]⟩ : Shape).Idx → EReal) (w : Fin c) :
    Ideal.reduceAdd h x (ix1 w) = ∑ p : Fin a, ∑ q : Fin b, x (ix3 p q w) := by
  unfold Ideal.reduceAdd
  rw [Finset.sum_filter, sum_idx3]
  refine Finset.sum_congr rfl fun p _ => Finset.sum_congr rfl fun q _ => ?_
  simp only [drop_lead2_iff]
  rw [Finset.sum_ite_eq' Finset.univ w fun r => x (ix3 p q r)]
  simp

/-- Dropping the three leading axes of a rank-4 index leaves its last coordinate. -/
theorem drop_lead3_val {a b c d : Nat} (h : (⟨4, ![a, b, c, d]⟩ : Shape).ReducesTo [0, 1, 2] ⟨1, ![d]⟩)
    (p : Fin a) (q : Fin b) (r : Fin c) (k : Fin d) : ((h.drop (ix4 p q r k) 0 : Fin d) : ℕ) = k.val := rfl

theorem drop_lead3_iff {a b c d : Nat} (h : (⟨4, ![a, b, c, d]⟩ : Shape).ReducesTo [0, 1, 2] ⟨1, ![d]⟩)
    (p : Fin a) (q : Fin b) (r : Fin c) (k w : Fin d) : h.drop (ix4 p q r k) = ix1 w ↔ k = w := by
  constructor
  · intro e
    have e0 := congrArg (fun u : (⟨1, ![d]⟩ : Shape).Idx => ((u 0 : Fin d) : ℕ)) e
    exact Fin.ext ((drop_lead3_val h p q r k).symm.trans e0)
  · rintro rfl
    funext u
    match u with
    | ⟨0, _⟩ => exact Fin.ext (drop_lead3_val h p q r k)

/-- The host's float sum over the three leading axes of a rank-4 tensor, at the result index with coordinate
    `w`: the initial value plus the triple sum over those axes' coordinates of the operand at (p, q, r, w). -/
theorem hostReduceAdd_lead3 {a b c d : Nat} (h : (⟨4, ![a, b, c, d]⟩ : Shape).ReducesTo [0, 1, 2] ⟨1, ![d]⟩)
    (x : (⟨4, ![a, b, c, d]⟩ : Shape).Idx → EReal) (init : EReal) (w : Fin d) :
    Ideal.hostReduceAdd h x init (ix1 w) = init + ∑ p : Fin a, ∑ q : Fin b, ∑ r : Fin c, x (ix4 p q r w) := by
  unfold Ideal.hostReduceAdd
  rw [Finset.sum_filter, sum_idx4]
  congr 1
  refine Finset.sum_congr rfl fun p _ => Finset.sum_congr rfl fun q _ => Finset.sum_congr rfl fun r _ => ?_
  simp only [drop_lead3_iff]
  rw [Finset.sum_ite_eq' Finset.univ w fun k => x (ix4 p q r k)]
  simp

/-- Dropping the leading axis of a rank-2 index leaves its last coordinate. -/
theorem drop_lead1_val {a b : Nat} (h : (⟨2, ![a, b]⟩ : Shape).ReducesTo [0] ⟨1, ![b]⟩)
    (p : Fin a) (k : Fin b) : ((h.drop (ix2 p k) 0 : Fin b) : ℕ) = k.val := rfl

theorem drop_lead1_iff {a b : Nat} (h : (⟨2, ![a, b]⟩ : Shape).ReducesTo [0] ⟨1, ![b]⟩)
    (p : Fin a) (k w : Fin b) : h.drop (ix2 p k) = ix1 w ↔ k = w := by
  constructor
  · intro e
    have e0 := congrArg (fun u : (⟨1, ![b]⟩ : Shape).Idx => ((u 0 : Fin b) : ℕ)) e
    exact Fin.ext ((drop_lead1_val h p k).symm.trans e0)
  · rintro rfl
    funext u
    match u with
    | ⟨0, _⟩ => exact Fin.ext (drop_lead1_val h p k)

/-- The host's float sum over the leading axis of a rank-2 tensor, at the result index with coordinate `w`: the
    initial value plus the sum over that axis's coordinates of the operand at (p, w). -/
theorem hostReduceAdd_lead1 {a b : Nat} (h : (⟨2, ![a, b]⟩ : Shape).ReducesTo [0] ⟨1, ![b]⟩)
    (x : (⟨2, ![a, b]⟩ : Shape).Idx → EReal) (init : EReal) (w : Fin b) :
    Ideal.hostReduceAdd h x init (ix1 w) = init + ∑ p : Fin a, x (ix2 p w) := by
  unfold Ideal.hostReduceAdd
  rw [Finset.sum_filter, sum_idx2]
  congr 1
  refine Finset.sum_congr rfl fun p _ => ?_
  simp only [drop_lead1_iff]
  rw [Finset.sum_ite_eq' Finset.univ w fun k => x (ix2 p k)]
  simp

end Cert.LibSumAxes

end
-- ==== Proof.RefValue.lean ====
/-
  The reference computes the total.

  jnp's `take_along_axis` first wraps a negative index (adds 441 where the index is below zero), then tests
  0 ≤ index ≤ 440, gathers the logarithm at the index clamped into range, and keeps the gathered value where
  the test holds (a NaN literal elsewhere). The bin index is below 441 (RefIndex), so read as a signed word it
  is itself: it is not wrapped, the test holds everywhere, the clamp is the identity, and the NaN branch is
  never taken. What is gathered at (n, ·, h, w) is then the logarithm of x at bin idx[n,h,w] — the one-hot
  pick —, the host sums it over (n, ·, h) from zero and negates the sum: the total.
-/
import proofs.«143988_j67791763800580_1_alg».proof.Proof.RefIndex
import proofs.«143988_j67791763800580_1_alg».proof.Proof.HistSpec
import proofs.«143988_j67791763800580_1_alg».proof.Proof.LibSumAxes
import Idealize.ShloMosaic.Lib.Affine
import Idealize.ShloMosaic.Lib.IdealHost
import Idealize.ShloMosaic.Lib.StableHlo.Predicate

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.ReferenceIdeal.RefIndex

/-! ## A word below 441, read signed -/

theorem small_toInt (b : BitVec 32) (hb : b.toNat < 441) : b.toInt = b.toNat :=
  StableHlo.Predicate.toInt_eq_toNat_of_lt (by omega)

theorem small_slt_zero (b : BitVec 32) (hb : b.toNat < 441) : IntOp.cmpi .slt b 0#32 = 0#1 := by
  apply eq_zero_of_ne_one
  rw [IntOp.cmpi_slt, small_toInt b hb]
  have : (0#32 : BitVec 32).toInt = 0 := by decide
  omega

theorem small_sge_zero (b : BitVec 32) (hb : b.toNat < 441) : IntOp.cmpi .sge b 0#32 = 1#1 := by
  rw [IntOp.cmpi_sge, small_toInt b hb]
  have : (0#32 : BitVec 32).toInt = 0 := by decide
  omega

theorem small_sle_440 (b : BitVec 32) (hb : b.toNat < 441) : IntOp.cmpi .sle b 440#32 = 1#1 := by
  rw [IntOp.cmpi_sle, small_toInt b hb]
  have : (440#32 : BitVec 32).toInt = 440 := by decide
  omega

theorem small_clamp (b : BitVec 32) (hb : b.toNat < 441) : min b.toInt.toNat 440 = b.toNat := by
  rw [small_toInt b hb]
  omega

/-! ## The index as take_along_axis reads it -/

variable (y : (⟨S8x2x128x128, .f32⟩ : BufTy).Contents (Elt Ideal))

/-- The wrapped index is the bin index itself (it is not negative). -/
theorem wrapped_eq (i : S8x1x128x128x1.Idx) :
    val_main_call1_v5 (F := Ideal) y i = val_main_v13 (F := Ideal) y (idx_main_v15 (idx_main_call1_v5 i)) := by
  rw [val_main_call1_v5_apply, val_main_call1_v4_apply, val_main_call1_v1_apply, val_main_v15_apply,
    val_main_call1_v0_apply, val_main_call1_c_apply, small_slt_zero _ (idx_lt y _), select_zero]

/-- The range test holds at every index. -/
theorem inrange_one (i : S8x1x128x128x1.Idx) : val_main_call1_v11 (F := Ideal) y i = 1#1 := by
  rw [val_main_call1_v11_apply, val_main_call1_v7_apply, val_main_call1_v10_apply, wrapped_eq,
    val_main_call1_v6_apply, val_main_call1_c_2_apply, val_main_call1_v9_apply, val_main_call1_v8_apply,
    val_main_call1_c_1_apply, small_sge_zero _ (idx_lt y _), small_sle_440 _ (idx_lt y _)]
  rfl

theorem fold_and_ones {ι : Type} [DecidableEq ι] (s : Finset ι) :
    s.fold IntOp.andi (1#1 : BitVec 1) (fun _ => (1#1 : BitVec 1)) = 1#1 := by
  induction s using Finset.induction_on with
  | empty => rfl
  | insert a s ha ih => rw [Finset.fold_insert ha, ih]; rfl

/-- So its conjunction over the unit axis is one. -/
theorem test_one (i : S8x1x128x128.Idx) : val_main_call1_v12 (F := Ideal) y i = 1#1 := by
  unfold val_main_call1_v12
  rw [show val_main_call1_v11 (F := Ideal) y = fun _ => 1#1 from funext (inrange_one y), Host.reduce_eq_fold]
  exact fold_and_ones _

/-! ## The gather, read at an index -/

/-- The gather's dimension numbers: a take along axis 1, batched over axes 0, 2 and 3. -/
abbrev takeDims : GatherDims S8x441x128x128 S8x1x128x128x1 S8x1x128x128 :=
  gather_S8x441x128x128_S8x1x128x128x1_S8x1x128x128_n_1_023_023_1_4_1111

/-- On a batching axis the operand coordinate is the result's coordinate on the paired axis. -/
theorem take_batch (idx : IVec S8x1x128x128x1 32) (j : S8x1x128x128.Idx) (a : Fin 4) (ha : a ∈ takeDims.operandBatchingDims) :
    takeDims.start j idx a + takeDims.batchCoord j a + takeDims.offCoord j a = takeDims.batchCoord j a := by
  rw [GatherDims.start_batching _ _ _ _ ha,
    GatherDims.offCoord_eq_zero _ _ _ (fun hm => ((GatherDims.mem_sKept _ _).mp hm).2 ha)]
  simp only [Nat.zero_add, Nat.add_zero]

/-- The batched take along axis 1: at (n, u, h, w) the operand at (n, the start index clamped into 0…440, h, w). -/
theorem gather_apply {α : Type} (x : S8x441x128x128.Idx → α) (idx : IVec S8x1x128x128x1 32)
    (n : Fin 8) (u : Fin 1) (h w : Fin 128) :
    Host.gather takeDims x idx (ix4 n u h w)
      = x (ix4 n ⟨min (idx (ix5 n u h w 0)).toInt.toNat 440, by omega⟩ h w) := by
  unfold Host.gather
  congr 1
  funext a
  refine Fin.ext ?_
  match a with
  | ⟨0, _⟩ =>
    show takeDims.start (ix4 n u h w) idx 0 + takeDims.batchCoord (ix4 n u h w) 0 + takeDims.offCoord (ix4 n u h w) 0 = n.val
    rw [take_batch idx _ 0 (by decide)]
    unfold GatherDims.batchCoord
    rw [dif_pos (by decide)]
    rfl
  | ⟨1, _⟩ =>
    show takeDims.start (ix4 n u h w) idx 1 + takeDims.batchCoord (ix4 n u h w) 1 + takeDims.offCoord (ix4 n u h w) 1
      = min (idx (ix5 n u h w 0)).toInt.toNat 440
    rw [GatherDims.batchCoord_eq_zero _ _ _ (by decide),
      GatherDims.offCoord_eq_zero _ _ _ (fun hm => ((GatherDims.mem_sKept _ _).mp hm).1 (by decide))]
    simp only [Nat.add_zero]
    unfold GatherDims.start
    rw [dif_pos (show (1 : Fin 4) ∈ takeDims.startIndexMap from by decide)]
    have hsi : takeDims.siIdx (ix4 n u h w) ⟨List.idxOf (1 : Fin 4) takeDims.startIndexMap,
        List.idxOf_lt_length_iff.2 (show (1 : Fin 4) ∈ takeDims.startIndexMap from by decide)⟩ = ix5 n u h w 0 := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl
  | ⟨2, _⟩ =>
    show takeDims.start (ix4 n u h w) idx 2 + takeDims.batchCoord (ix4 n u h w) 2 + takeDims.offCoord (ix4 n u h w) 2 = h.val
    rw [take_batch idx _ 2 (by decide)]
    unfold GatherDims.batchCoord
    rw [dif_pos (by decide)]
    rfl
  | ⟨3, _⟩ =>
    show takeDims.start (ix4 n u h w) idx 3 + takeDims.batchCoord (ix4 n u h w) 3 + takeDims.offCoord (ix4 n u h w) 3 = w.val
    rw [take_batch idx _ 3 (by decide)]
    unfold GatherDims.batchCoord
    rw [dif_pos (by decide)]
    rfl

/-! ## The reference's result -/

variable (x : (⟨S8x441x128x128, .f32⟩ : BufTy).Contents (Elt Ideal))

/-- The index the wrapped-index stage reads at (n, u, h, w, k) is (n, h, w). -/
theorem read_idx (n : Fin 8) (u : Fin 1) (h w : Fin 128) (k : Fin 1) :
    idx_main_v15 (idx_main_call1_v5 (ix5 n u h w k)) = ix3 n h w := by
  funext a; refine Fin.ext ?_
  have hn := n.isLt; have hu := u.isLt; have hh := h.isLt; have hw := w.isLt; have hk := k.isLt
  match a with
  | ⟨0, _⟩ => show (((((n.val * 1 + u.val) * 128 + h.val) * 128 + w.val) * 1 + k.val) / 16384) = n.val; omega
  | ⟨1, _⟩ => show (((((n.val * 1 + u.val) * 128 + h.val) * 128 + w.val) * 1 + k.val) / 128 % 128) = h.val; omega
  | ⟨2, _⟩ => show (((((n.val * 1 + u.val) * 128 + h.val) * 128 + w.val) * 1 + k.val) % 128) = w.val; omega

/-- What is kept of the gather at (n, u, h, w): the one-hot pick. -/
theorem kept_apply (n : Fin 8) (u : Fin 1) (h w : Fin 128) :
    val_main_v16 (F := Ideal) x y (ix4 n u h w) = HistSpec.pick x (val_main_v13 (F := Ideal) y) n h w := by
  rw [val_main_v16_apply, test_one, select_one]
  show Host.gather takeDims (val_main_v14 (F := Ideal) x) (val_main_call1_v5 (F := Ideal) y) (ix4 n u h w) = _
  rw [gather_apply, HistSpec.pick_of_lt x _ n h w (idx_lt y _), val_main_v14_apply, Ideal.hostUnary_log_def]
  congr 2
  funext a; refine Fin.ext ?_
  match a with
  | ⟨0, _⟩ => rfl
  | ⟨1, _⟩ =>
    show min (val_main_call1_v5 (F := Ideal) y (ix5 n u h w 0)).toInt.toNat 440 = (val_main_v13 (F := Ideal) y (ix3 n h w)).toNat
    rw [wrapped_eq, read_idx, small_clamp _ (idx_lt y _)]
  | ⟨2, _⟩ => rfl
  | ⟨3, _⟩ => rfl

/-- The reference's result is the total. -/
theorem result_eq : val_main_v18 (F := Ideal) x y = HistSpec.G x (val_main_v13 (F := Ideal) y) := by
  funext j
  obtain ⟨w, rfl⟩ : ∃ w : Fin 128, j = ix1 w := ⟨j 0, eq_ix1 j⟩
  rw [HistSpec.G_apply, val_main_v18_apply, Ideal.hostNegf_def]
  show -(val_main_v17 (F := Ideal) x y (ix1 w)) = _
  unfold HistSpec.total
  congr 1
  unfold val_main_v17
  rw [hostReduceAdd_apply, LibSumAxes.hostReduceAdd_lead3]
  show Ideal.ofBits .f32 0x00000000#32 + _ = _
  rw [Ideal.ofBits_zero_f32, zero_add]
  refine Finset.sum_congr rfl fun n _ => ?_
  rw [Fin.sum_univ_one]
  exact Finset.sum_congr rfl fun h _ => kept_apply y x n 0 h w

end Cert.ReferenceIdeal.RefValue

end
-- ==== Proof.KernelIdealPieces.lean ====
/-
  What each control case of the kernel body leaves behind, as values.

  The body runs in one of three cases, by the position q of the grid point in its row of three:
  q = 0 resets the accumulator to zero and then adds this chunk's partial sum to it; q = 1 adds the chunk's
  partial sum to what the point before left; q = 2 does the same and then writes zero minus the accumulator
  into the output block. Each store writes a whole buffer, so what a buffer holds afterwards is the last
  store's value, and a load after a store in the same run reads that store's value. In terms of the body's
  named arithmetic: the accumulator ends at `k0_pay2` of the two input blocks and the accumulator before
  (the zero vector `k0_pay1` in the first case), the output block at `k0_pay3` of the new accumulator.
-/
import proofs.«143988_j67791763800580_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First point of a row: the accumulator is reset, then updated; it ends at the update of the zero vector. -/
theorem acc_A (c : Dev nD) (i : grid0.Coords) (arg2 : Memref sig .tc .vmem S1x128x128 .i32) (harg2 : arg2.IsWhole) (arg3 : Memref sig .tc .vmem S1x147x128x128 .f32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i)
    (x0 : Vec F S1x128x128 .i32) (x1 : Vec F S1x147x128x128 .f32) :
    sout0_A_0 c i arg2 harg2 arg3 harg3 arg4 harg4 arg5 harg5 hc0 hc1 x0 x1 = k0_pay2 i x1 x0 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg5.read_unread, View.ld_unit_zero (S := S1x128) hz2, View.ld_unit_zero (S := S1x128x128) hz3, View.ld_unit_zero (S := S1x147x128x128) hz4]

/-- Middle point of a row: the accumulator ends at the update of what the point before left. -/
theorem acc_B (c : Dev nD) (i : grid0.Coords) (arg2 : Memref sig .tc .vmem S1x128x128 .i32) (harg2 : arg2.IsWhole) (arg3 : Memref sig .tc .vmem S1x147x128x128 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i)
    (x0 : Vec F S1x128x128 .i32) (x1 : Vec F S1x147x128x128 .f32) (xs0 : Vec F S1x128 .f32) :
    sout0_B_0 c i arg2 harg2 arg3 harg3 arg4 harg4 arg5 harg5 hc0 hc1 x0 x1 xs0 = k0_pay2 i x1 x0 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S1x128) hz2, View.ld_unit_zero (S := S1x128x128) hz3, View.ld_unit_zero (S := S1x147x128x128) hz4]

/-- Last point of a row: the accumulator likewise, -/
theorem acc_C (c : Dev nD) (i : grid0.Coords) (arg2 : Memref sig .tc .vmem S1x128x128 .i32) (harg2 : arg2.IsWhole) (arg3 : Memref sig .tc .vmem S1x147x128x128 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 : Vec F S1x128x128 .i32) (x1 : Vec F S1x147x128x128 .f32) (xs0 : Vec F S1x128 .f32) :
    sout0_C_0 c i arg2 harg2 arg3 harg3 arg4 harg4 arg5 harg5 hc0 hc1 x0 x1 xs0 = k0_pay2 i x1 x0 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1x128) hz2, View.ld_unit_zero (S := S1x128x128) hz3, View.ld_unit_zero (S := S1x147x128x128) hz4]

/-- and the output block is written from the accumulator just updated. -/
theorem out_C (c : Dev nD) (i : grid0.Coords) (arg2 : Memref sig .tc .vmem S1x128x128 .i32) (harg2 : arg2.IsWhole) (arg3 : Memref sig .tc .vmem S1x147x128x128 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 : Vec F S1x128x128 .i32) (x1 : Vec F S1x147x128x128 .f32) (xs0 : Vec F S1x128 .f32) :
    out0_C_2 c i arg2 harg2 arg3 harg3 arg4 harg4 arg5 harg5 hc0 hc1 x0 x1 xs0 = k0_pay3 (k0_pay2 i x1 x0 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readCov_unit_zero (S := S1x128) _ hz2, View.readAt_eq_ld, harg2.read_unread, harg3.read_unread, harg5.read_unread, View.ld_unit_zero (S := S1x128) hz2, View.ld_unit_zero (S := S1x128x128) hz3, View.ld_unit_zero (S := S1x147x128x128) hz4]

end Cert.KernelIdeal.Pieces

end
-- ==== Proof.KernelPayload.lean ====
/-
  The body's arithmetic, read at an index, over the extended reals.

  At grid point (n, q) the body holds the index block idx[n, ·, ·] (128 × 128 words), the chunk block
  x[n, 147q … 147q+146, ·, ·] and the accumulator. It compares every index word with the bin numbers of the chunk,
  147·q + t for t = 0 … 146 (a column of 147 words broadcast over the 128 × 128 positions), keeps log x where they
  are equal and 0 elsewhere, sums the kept values over (t, h) for each lane w, and adds that to the accumulator.
  Read at lane w:  acc[w] + Σₜ Σₕ [idx[h,w] = 147q + t] · log x[t,h,w].  The closing store writes 0 − acc.
-/
import proofs.«143988_j67791763800580_1_alg».proof.Proof.Gen.KernelIdeal.Skeleton
import proofs.«143988_j67791763800580_1_alg».proof.Proof.LibSumAxes
import Idealize.ShloMosaic.Lib.Pipeline.Value
import Idealize.ShloMosaic.Lib.ValueIdx
import Idealize.ShloMosaic.Lib.Affine
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The index block, viewed 128 × 128 and back and broadcast over the chunk's bins, read at (t, h, w): idx[h, w]. -/
theorem idx_bcast_apply (x0 : Vec Ideal S1x128x128 .i32) (t : Fin 147) (h w : Fin 128) :
    broadcastTo S147x128x128
      (shapeCast S1x128x128 (shapeCast S128x128 x0 shapeCasts_S1x128x128_S128x128) shapeCasts_S128x128_S1x128x128)
      broadcasts_S1x128x128_S147x128x128 (ix3 t h w) = x0 (ix3 0 h w) := by
  rw [shapeCast_shapeCast]
  exact broadcastTo_apply x0 broadcasts_S1x128x128_S147x128x128 (ix3 t h w) (ix3 0 h w)
    (fun a => by match a with | ⟨0, _⟩ => rfl | ⟨1, _⟩ => rfl | ⟨2, _⟩ => rfl)

/-- The chunk's bin numbers — the chunk's offset 147·q plus the position in the chunk — broadcast over the
    positions, read at (t, h, w): the word of 147·q + t. -/
theorem bin_bcast_apply (q : ℕ) (t : Fin 147) (h w : Fin 128) :
    broadcastTo S147x128x128
      (addi (broadcast S147x1x1 (Scalar.muli (BitVec.ofNat 32 q) 147#32)) (iota .tc S147x1x1 32 [0] iota_S147x1x1_d0_w32))
      broadcasts_S147x1x1_S147x128x128 (ix3 t h w) = BitVec.ofNat 32 (147 * q + t.val) := by
  rw [broadcastTo_apply _ broadcasts_S147x1x1_S147x128x128 (ix3 t h w) (ix3 t 0 0)
    (fun a => by match a with | ⟨0, _⟩ => rfl | ⟨1, _⟩ => rfl | ⟨2, _⟩ => rfl)]
  show IntOp.addi (Scalar.muli (BitVec.ofNat 32 q) 147#32) (iota .tc S147x1x1 32 [0] iota_S147x1x1_d0_w32 (ix3 t 0 0)) = _
  rw [iota_single_apply]
  show BitVec.ofNat 32 q * BitVec.ofNat 32 147 + BitVec.ofNat 32 t.val = _
  rw [← BitVec.ofNat_mul, ← BitVec.ofNat_add, Nat.mul_comm]

/-- The logarithm of the chunk block viewed without its unit axis, read at (t, h, w). -/
theorem log_block_apply (x1 : Vec Ideal S1x147x128x128 .f32) (t : Fin 147) (h w : Fin 128) :
    log (F := Ideal) (φ := .f32) (shapeCast S147x128x128 x1 shapeCasts_S1x147x128x128_S147x128x128) (ix3 t h w)
      = Ideal.log (x1 (ix4 0 t h w)) := by
  show Ideal.log (shapeCast S147x128x128 x1 shapeCasts_S1x147x128x128_S147x128x128 (ix3 t h w)) = _
  rw [shapeCast_dropUnit_apply ![147, 128, 128]]
  congr 2
  funext a
  match a with
  | ⟨0, _⟩ => rfl
  | ⟨1, _⟩ => rfl
  | ⟨2, _⟩ => rfl
  | ⟨3, _⟩ => rfl

/-- The zero vector the accumulator is reset to. -/
theorem pay1_apply (j : S1x128.Idx) : k0_pay1 (F := Ideal) j = 0 := by
  unfold k0_pay1
  rw [shapeCast_self]
  exact Ideal.ofBits_zero_f32

/-- The accumulator's update at lane w. -/
theorem pay2_apply (i : grid0.Coords) (x1 : Vec Ideal S1x147x128x128 .f32) (x0 : Vec Ideal S1x128x128 .i32)
    (acc : Vec Ideal S1x128 .f32) (w : Fin 128) :
    k0_pay2 i x1 x0 acc (ix2 0 w) = acc (ix2 0 w) + ∑ t : Fin 147, ∑ h : Fin 128,
      (if x0 (ix3 0 h w) = BitVec.ofNat 32 (147 * (i 1).val + t.val) then Ideal.log (x1 (ix4 0 t h w)) else 0) := by
  unfold k0_pay2
  dsimp only
  rw [shapeCast_self, addf_apply]
  congr 1
  rw [shapeCast_addUnit_apply ![128]]
  have e : (fun a : Fin 1 => ix2 (0 : Fin 1) w a.succ) = ix1 w := funext fun a => by
    match a with | ⟨0, _⟩ => rfl
  rw [e]
  show Ideal.reduceAdd reduces_S147x128x128_S128 _ (ix1 w) = _
  rw [LibSumAxes.reduceAdd_lead2]
  refine Finset.sum_congr rfl fun t _ => Finset.sum_congr rfl fun h _ => ?_
  rw [select_apply]
  show Scalar.select (IntOp.cmpi .eq (broadcastTo S147x128x128 _ broadcasts_S1x128x128_S147x128x128 (ix3 t h w))
      (broadcastTo S147x128x128 _ broadcasts_S147x1x1_S147x128x128 (ix3 t h w)))
    (log (shapeCast S147x128x128 x1 shapeCasts_S1x147x128x128_S147x128x128) (ix3 t h w)) (Ideal.ofBits .f32 0x00000000#32) = _
  rw [idx_bcast_apply, bin_bcast_apply, log_block_apply, Ideal.ofBits_zero_f32]
  by_cases hq : x0 (ix3 0 h w) = BitVec.ofNat 32 (147 * (i 1).val + t.val)
  · rw [if_pos hq, IntOp.cmpi_eq.mpr hq, select_one]
  · rw [if_neg hq, eq_zero_of_ne_one (fun hc => hq (IntOp.cmpi_eq.mp hc)), select_zero]

/-- The closing store's value at lane w: zero minus the accumulator. -/
theorem pay3_apply (v : Vec Ideal S1x128 .f32) (w : Fin 128) : k0_pay3 v (ix3 0 0 w) = 0 - v (ix2 0 w) := by
  unfold k0_pay3
  rw [shapeCast_addUnit_apply ![1, 128]]
  have e : (fun a : Fin 2 => ix3 (0 : Fin 1) (0 : Fin 1) w a.succ) = ix2 0 w := funext fun a => by
    match a with | ⟨0, _⟩ => rfl | ⟨1, _⟩ => rfl
  rw [e, subf_apply]
  show Ideal.ofBits .f32 0x00000000#32 - _ = _
  rw [Ideal.ofBits_zero_f32]

end Cert.KernelIdeal.Payload

end
-- ==== Proof.KernelBlocks.lean ====
/-
  The kernel's blocks as parts of the whole arrays.

  The grid is 8 × 3: point t is (n, q) = (t / 3, t mod 3). At that point the index window holds idx[n, ·, ·] (the
  same block for the three points of a row), the probability window holds the chunk x[n, 147q … 147q + 146, ·, ·],
  and the output window is block n of the 8 × 1 × 128 result. So the masked sum the body adds at point t is the
  chunk contribution `part` of the specification at (n, q).
-/
import proofs.«143988_j67791763800580_1_alg».proof.Proof.Gen.KernelIdeal.Frame
import proofs.«143988_j67791763800580_1_alg».proof.Proof.HistSpec
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The probabilities as the region finds them. -/
abbrev xarr (c : Dev nD) : Vec Ideal S8x441x128x128 .f32 := V m c main_arg0
/-- The bin indices as the region finds them. -/
abbrev iarr (c : Dev nD) : Vec Ideal S8x128x128 .i32 := V m c main_v13
/-- The chunk block at point t. -/
abbrev xblk (c : Dev nD) (t : Fin cfg0.N) : Vec Ideal S1x147x128x128 .f32 := iblk m c 1 t
/-- The index block at point t. -/
abbrev nblk (c : Dev nD) (t : Fin cfg0.N) : Vec Ideal S1x128x128 .i32 := iblk m c 0 t

/-- The grid's coordinates and the three index maps at point t, decided over the 24 points. -/
theorem point_facts : ∀ t : Fin cfg0.N, (grid0.coords t 1).val = t.val % 3
    ∧ win0_0.index t (0 : Fin 3) = t.val / 3 ∧ win0_0.index t (1 : Fin 3) = 0 ∧ win0_0.index t (2 : Fin 3) = 0
    ∧ win0_1.index t (0 : Fin 4) = t.val / 3 ∧ win0_1.index t (1 : Fin 4) = t.val % 3
    ∧ win0_1.index t (2 : Fin 4) = 0 ∧ win0_1.index t (3 : Fin 4) = 0
    ∧ win0_2.index t (0 : Fin 3) = t.val / 3 ∧ win0_2.index t (1 : Fin 3) = 0 ∧ win0_2.index t (2 : Fin 3) = 0 :=
  (by decide +kernel : ∀ t : Fin grid0.N, _)

theorem row_lt (t : Fin cfg0.N) : t.val / 3 < 8 := by
  have hN : t.val < 24 := lt_of_lt_of_eq t.isLt (show cfg0.N = 24 from N_0)
  omega

/-- The index block at point t is row t / 3 of the index array. -/
theorem nblk_apply (c : Dev nD) (t : Fin cfg0.N) (h w : Fin 128) :
    nblk m c t (ix3 0 h w) = iarr m c (ix3 ⟨t.val / 3, row_lt t⟩ h w) := by
  obtain ⟨-, e0, e1, e2, -⟩ := point_facts t
  unfold nblk iblk
  rw [View.read_apply]
  show V m c main_v13 _ = V m c main_v13 _
  congr 1
  funext a
  apply Fin.ext
  match a with
  | ⟨0, _⟩ => show win0_0.index t (0 : Fin 3) * 1 + 1 * 0 = t.val / 3; omega
  | ⟨1, _⟩ => show win0_0.index t (1 : Fin 3) * 128 + 1 * h.val = h.val; omega
  | ⟨2, _⟩ => show win0_0.index t (2 : Fin 3) * 128 + 1 * w.val = w.val; omega

/-- The chunk block at point t is bins 147·(t mod 3) … of row t / 3 of the probability array. -/
theorem xblk_apply (c : Dev nD) (t : Fin cfg0.N) (k : Fin 147) (h w : Fin 128) :
    xblk m c t (ix4 0 k h w)
      = xarr m c (ix4 ⟨t.val / 3, row_lt t⟩ ⟨147 * (t.val % 3) + k.val, by have := k.isLt; omega⟩ h w) := by
  obtain ⟨-, -, -, -, e0, e1, e2, e3, -⟩ := point_facts t
  unfold xblk iblk
  rw [View.read_apply]
  show V m c main_arg0 _ = V m c main_arg0 _
  congr 1
  funext a
  apply Fin.ext
  match a with
  | ⟨0, _⟩ => show win0_1.index t (0 : Fin 4) * 1 + 1 * 0 = t.val / 3; omega
  | ⟨1, _⟩ => show win0_1.index t (1 : Fin 4) * 147 + 1 * k.val = 147 * (t.val % 3) + k.val; omega
  | ⟨2, _⟩ => show win0_1.index t (2 : Fin 4) * 128 + 1 * h.val = h.val; omega
  | ⟨3, _⟩ => show win0_1.index t (3 : Fin 4) * 128 + 1 * w.val = w.val; omega

/-- The masked sum the body adds at point t is the specification's chunk contribution at (t / 3, t mod 3). -/
theorem point_part (c : Dev nD) (t : Fin cfg0.N) (w : Fin 128) :
    (∑ k : Fin 147, ∑ h : Fin 128,
      (if nblk m c t (ix3 0 h w) = BitVec.ofNat 32 (147 * (grid0.coords t 1).val + k.val)
       then Ideal.log (xblk m c t (ix4 0 k h w)) else 0))
      = HistSpec.part (xarr m c) (iarr m c) ⟨t.val / 3, row_lt t⟩ ⟨t.val % 3, Nat.mod_lt _ (by decide)⟩ w := by
  obtain ⟨eq, -⟩ := point_facts t
  unfold HistSpec.part
  refine Finset.sum_congr rfl fun k _ => Finset.sum_congr rfl fun h _ => ?_
  rw [nblk_apply, xblk_apply, eq]

end Cert.KernelIdeal.Blocks

end
-- ==== Proof.KernelAccum.lean ====
/-
  The accumulator along a row of the grid.

  A row of the grid is the three points (n, 0), (n, 1), (n, 2). The accumulator is reset at the first, and each
  point adds its chunk's contribution: after the three points it holds ((0 + part₀) + part₁) + part₂, which is
  the sum over the 128 rows h of the one-hot picks at (n, h, w). The last point writes zero minus that into the
  output block. Only the three points of one row are involved, so the running value is followed point by point
  (the point before a middle or last point is in the same row), with no induction over the whole grid.
-/
import proofs.«143988_j67791763800580_1_alg».proof.Proof.KernelIdealPieces
import proofs.«143988_j67791763800580_1_alg».proof.Proof.KernelPayload
import proofs.«143988_j67791763800580_1_alg».proof.Proof.KernelBlocks

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.KernelIdeal.Blocks

variable (m : (ℓ : Loc nD τ sig) → Buf (Elt Ideal) ℓ)

/-- What the accumulator holds at lane w after point t. -/
abbrev accAt (c : Dev nD) (t : Fin cfg0.N) (w : Fin 128) : EReal := (outsAt0 m c t.val t.isLt).2 (ix2 0 w)

/-- The chunk contribution at row n, chunk q, lane w, of the arrays the region finds. -/
abbrev part (c : Dev nD) (n : Fin 8) (q : Fin 3) (w : Fin 128) : EReal := HistSpec.part (xarr m c) (iarr m c) n q w

/-- The contribution added at point t, for any names n, q of its row and chunk. -/
theorem point_part' (c : Dev nD) (t : Fin cfg0.N) (n : Fin 8) (hn : n.val = t.val / 3) (q : Fin 3) (hq : q.val = t.val % 3)
    (w : Fin 128) :
    (∑ k : Fin 147, ∑ h : Fin 128,
      (if nblk m c t (ix3 0 h w) = BitVec.ofNat 32 (147 * (grid0.coords t 1).val + k.val)
       then Ideal.log (xblk m c t (ix4 0 k h w)) else 0)) = part m c n q w := by
  rw [point_part]
  have e1 : (⟨t.val / 3, row_lt t⟩ : Fin 8) = n := Fin.ext hn.symm
  have e2 : (⟨t.val % 3, Nat.mod_lt _ (by decide)⟩ : Fin 3) = q := Fin.ext hq.symm
  rw [e1, e2]

/-- After the first point of a row. -/
theorem acc_first (c : Dev nD) (t : Fin cfg0.N) (h0 : t.val % 3 = 0) (n : Fin 8) (hn : n.val = t.val / 3) (w : Fin 128) :
    accAt m c t w = 0 + part m c n 0 w := by
  have h1 : ¬t.val % 3 = 2 := by omega
  unfold accAt
  rw [outsAt0_A m c t h0 h1]
  dsimp only
  refine (congrFun (Pieces.acc_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (nblk m c t) (xblk m c t)) (ix2 0 w)).trans ?_
  rw [Payload.pay2_apply (grid0.coords t) (xblk m c t) (nblk m c t) _ w, Payload.pay1_apply,
    point_part' m c t n hn 0 (by simpa using h0.symm) w]

/-- After the middle point of a row. -/
theorem acc_mid (c : Dev nD) (t : Fin cfg0.N) (h1 : t.val % 3 = 1) (n : Fin 8) (hn : n.val = t.val / 3) (w : Fin 128) :
    accAt m c t w = (0 + part m c n 0 w) + part m c n 1 w := by
  have h0 : ¬t.val % 3 = 0 := by omega
  have h2 : ¬t.val % 3 = 2 := by omega
  have hlt : t.val - 1 < cfg0.N := Nat.lt_of_le_of_lt (Nat.sub_le _ _) t.isLt
  have hp := acc_first m c ⟨t.val - 1, hlt⟩ (by show (t.val - 1) % 3 = 0; omega) n (by show n.val = (t.val - 1) / 3; omega) w
  unfold accAt
  rw [outsAt0_B m c t h0 h2]
  dsimp only
  refine (congrFun (Pieces.acc_B (F := Ideal) c (grid0.coords t) (ms0_0 t) (hs0_0 t) (ms0_1 t) (hs0_1 t) (ms0_2 t) (hs0_2 t) scM0_0 (Memref.isWhole_whole _) (fun h => h0 ((hcond0_0 t).mp h)) (fun h => h2 ((hcond0_1 t).mp h)) (nblk m c t) (xblk m c t) (outsAt0 m c (t.val - 1) hlt).2) (ix2 0 w)).trans ?_
  rw [Payload.pay2_apply (grid0.coords t) (xblk m c t) (nblk m c t) _ w,
    point_part' m c t n hn 1 (by simpa using h1.symm) w]
  exact congrArg (· + part m c n 1 w) hp

/-- After the last point of a row: the three contributions, that is, the sum over the rows of the picks. -/
theorem acc_last (c : Dev nD) (t : Fin cfg0.N) (h2 : t.val % 3 = 2) (n : Fin 8) (hn : n.val = t.val / 3) (w : Fin 128)
    (xs : Vec Ideal S1x128 .f32) (hxs : xs = (outsAt0 m c (t.val - 1) (Nat.lt_of_le_of_lt (Nat.sub_le _ _) t.isLt)).2) :
    k0_pay2 (grid0.coords t) (xblk m c t) (nblk m c t) xs (ix2 0 w)
      = ∑ h : Fin 128, HistSpec.pick (xarr m c) (iarr m c) n h w := by
  have hlt : t.val - 1 < cfg0.N := Nat.lt_of_le_of_lt (Nat.sub_le _ _) t.isLt
  have hp := acc_mid m c ⟨t.val - 1, hlt⟩ (by show (t.val - 1) % 3 = 1; omega) n (by show n.val = (t.val - 1) / 3; omega) w
  rw [Payload.pay2_apply (grid0.coords t) (xblk m c t) (nblk m c t) xs w,
    point_part' m c t n hn 2 (by simpa using h2.symm) w, hxs]
  rw [← HistSpec.parts_eq]
  exact congrArg (· + part m c n 2 w) hp

/-- What the last point of a row writes into the output block at lane w. -/
theorem out_last (c : Dev nD) (t : Fin cfg0.N) (h2 : t.val % 3 = 2) (n : Fin 8) (hn : n.val = t.val / 3) (w : Fin 128) :
    (outsAt0 m c t.val t.isLt).1 (ix3 0 0 w) = 0 - ∑ h : Fin 128, HistSpec.pick (xarr m c) (iarr m c) n h w := by
  have h0 : ¬t.val % 3 = 0 := by omega
  rw [outsAt0_C m c t h0 h2]
  dsimp only
  refine (congrFun (Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h2) (nblk m c t) (xblk m c t) (outsAt0 m c (t.val - 1) (Nat.lt_of_le_of_lt (Nat.sub_le _ _) t.isLt)).2) (ix3 0 0 w)).trans ?_
  rw [Payload.pay3_apply, acc_last m c t h2 n hn w _ rfl]

end Cert.KernelIdeal.Accum

end
-- ==== Proof.KernelValue.lean ====
/-
  The kernel's result.

  The output window's block n is written back once, after the last point of row n, with zero minus the row's
  accumulated sum; the eight blocks tile the 8 × 1 × 128 result array, so after the region that array holds, at
  (n, 0, w), 0 − Σₕ pick(n, h, w). The host lines after the region view it 8 × 128 and add over n from zero:
  0 + Σₙ (0 − Σₕ pick(n, h, w)), which is the total −Σₙ Σₕ pick(n, h, w) when no logarithm is +∞.
-/
import proofs.«143988_j67791763800580_1_alg».proof.Proof.KernelAccum
import proofs.«143988_j67791763800580_1_alg».proof.Proof.LibSumAxes
import Idealize.ShloMosaic.Lib.StableHlo.Run
import Idealize.ShloMosaic.Lib.IdealHost

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.KernelIdeal.Blocks
open Idealize.ShloMosaic.Pipeline (Dat)

variable (m : (ℓ : Loc nD τ sig) → Buf (Elt Ideal) ℓ) (ρ : Dev nD → PrngReg)

/-- The region's result array: at (n, 0, w), zero minus the sum over the rows of the picks. -/
def outArr (c : Dev nD) : Vec Ideal S8x1x128 .f32 :=
  fun i => 0 - ∑ h : Fin 128, HistSpec.pick (xarr m c) (iarr m c) (i 0) h (i 2)

/-- What the last point of a row leaves in the output block, at any index of the block. -/
theorem out_at (c : Dev nD) (t : Fin cfg0.N) (h2 : t.val % 3 = 2) (y : S1x1x128.Idx) :
    (outsAt0 m c t.val t.isLt).1 y
      = 0 - ∑ h : Fin 128, HistSpec.pick (xarr m c) (iarr m c) ⟨t.val / 3, row_lt t⟩ h (y 2) := by
  have hy0 : (y 0).val < 1 := (y 0).isLt
  have hy1 : (y 1).val < 1 := (y 1).isLt
  obtain ⟨w, rfl⟩ : ∃ w : Fin 128, y = ix3 0 0 w := ⟨y 2, by
    funext a
    match a with
    | ⟨0, _⟩ => exact Fin.ext (by show (y 0).val = 0; omega)
    | ⟨1, _⟩ => exact Fin.ext (by show (y 1).val = 0; omega)
    | ⟨2, _⟩ => rfl⟩
  exact Accum.out_last m c t h2 ⟨t.val / 3, row_lt t⟩ rfl w

/-- What the last point of a row writes back is that row's block of the result array. -/
theorem flushed_eq (c : Dev nD) (t : Fin cfg0.N) (hf : (cfg0.win 2).flush t = true) :
    (dats m 0 c).flushed 2 t = ((cfg0.win 2).blk t).view.read (Elt Ideal) (outArr m c) := by
  have h2 : t.val % 3 = 2 := (flush0_2 t).mp hf
  obtain ⟨-, -, -, -, -, -, -, -, e0, e1, e2⟩ := point_facts t
  show (cfg0.win 2).cut (grid0.coords t) ((dats m 0 c).after 2 t) = _
  rw [after0_2]
  funext j
  have hj0 : (j 0).val < 1 := (j 0).isLt
  show (outsAt0 m c t.val t.isLt).1 j = outArr m c (((cfg0.win 2).blk t).view.emb j)
  refine (out_at m c t h2 j).trans ?_
  unfold outArr
  have a0 : (⟨t.val / 3, row_lt t⟩ : Fin 8) = ((cfg0.win 2).blk t).view.emb j 0 := by
    apply Fin.ext
    show t.val / 3 = win0_2.index t (0 : Fin 3) * 1 + 1 * (j 0).val
    omega
  have a2 : (j 2 : Fin 128) = ((cfg0.win 2).blk t).view.emb j 2 := by
    apply Fin.ext
    show (j 2).val = win0_2.index t (2 : Fin 3) * 128 + 1 * (j 2).val
    omega
  rw [a0, a2]

/-- An index of the result array is in row t's block iff each coordinate is in the block's range. -/
theorem mem_blk (t : Fin cfg0.N) (i : S8x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v14).slice (win0_2.rect t)).set ↔ _
  rw [View.set_slice_whole, Rect.mem_set_unit]
  exact Iff.rfl

/-- So after the region the result array is `outArr`: the eight rows' blocks cover it. -/
theorem final (c : Dev nD) : (dats m 0 c).arrAt 2 cfg0.N = outArr m c :=
  (dats m 0 c).arrAt_eq_of_cover 2 (outArr m c) (flushed_eq m c) fun i => by
    have hi0 : (i 0).val < 8 := (i 0).isLt
    have hi1 : (i 1).val < 1 := (i 1).isLt
    have hi2 : (i 2).val < 128 := (i 2).isLt
    have hlt : 3 * (i 0).val + 2 < cfg0.N := lt_of_lt_of_eq (by omega : 3 * (i 0).val + 2 < 24) (N_0).symm
    refine ⟨⟨3 * (i 0).val + 2, hlt⟩, (flush0_2 _).mpr (by show (3 * (i 0).val + 2) % 3 = 2; omega), ?_⟩
    obtain ⟨-, -, -, -, -, -, -, -, e0, e1, e2⟩ := point_facts ⟨3 * (i 0).val + 2, hlt⟩
    have e0' : win0_2.index ⟨3 * (i 0).val + 2, hlt⟩ (0 : Fin 3) = (i 0).val := by rw [e0]; show (3 * (i 0).val + 2) / 3 = _; omega
    rw [mem_blk]
    intro a
    match a with
    | ⟨0, _⟩ => show win0_2.index _ (0 : Fin 3) * 1 ≤ (i 0).val ∧ (i 0).val < win0_2.index _ (0 : Fin 3) * 1 + 1; omega
    | ⟨1, _⟩ => show win0_2.index _ (1 : Fin 3) * 1 ≤ (i 1).val ∧ (i 1).val < win0_2.index _ (1 : Fin 3) * 1 + 1; omega
    | ⟨2, _⟩ => show win0_2.index _ (2 : Fin 3) * 128 ≤ (i 2).val ∧ (i 2).val < win0_2.index _ (2 : Fin 3) * 128 + 128; omega

/-- The host lines after the region: the result array viewed 8 × 128 and summed over its rows from zero. -/
theorem tail_eq (c : Dev nD) :
    Pipeline.afterTail₀ cfgs (dats m) 0 (V0 m) [hostOps1] c main_v16
      = Host.reduceAdd (shapeCast S8x128 (outArr m c) shapeCasts_S8x1x128_S8x128) (constant (F := Ideal) S_ .f32 0x00000000#32)
          reducesTo_S8x128_S128_d0 h_S_ := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.tc.devRef main_v14)
      = outArr m c := (Pipeline.withArrays_arr spec0 launch0.win.arr_inj c _ _ 2).trans (final m c)
  congr 1
  funext i
  show shapeCast S8x128 (Pipeline.withArrays (cfgs 0).spec c (V0 m c) (fun w => (dats m 0 c).arrAt w (cfgs 0).N)
    (Proc.tc.devRef main_v14)) shapeCasts_S8x1x128_S8x128 i = _
  rw [e]

/-- The host's sum over the eight rows of the result array is the total, when no logarithm is +∞. -/
theorem result_eq (c : Dev nD) (hx : ∀ i, Ideal.log (xarr m c i) ≠ ⊤) :
    Host.reduceAdd (shapeCast S8x128 (outArr m c) shapeCasts_S8x1x128_S8x128) (constant (F := Ideal) S_ .f32 0x00000000#32)
        reducesTo_S8x128_S128_d0 h_S_ = HistSpec.G (xarr m c) (iarr m c) := by
  funext j
  obtain ⟨w, rfl⟩ : ∃ w : Fin 128, j = ix1 w := ⟨j 0, eq_ix1 j⟩
  rw [hostReduceAdd_apply, LibSumAxes.hostReduceAdd_lead1, HistSpec.G_apply, ← HistSpec.neg_each_eq_total _ _ hx w]
  show Ideal.ofBits .f32 0x00000000#32 + _ = _
  rw [Ideal.ofBits_zero_f32]
  refine congrArg (fun z : EReal => 0 + z) (Finset.sum_congr rfl fun n _ => ?_)
  rw [shapeCast_apply (outArr m c) shapeCasts_S8x1x128_S8x128 (ix2 n w) (ix3 n 0 w)
    (by rw [Shape.rowMajor_val_three, Shape.rowMajor_val_two]; show (n.val * 1 + 0) * 128 + w.val = n.val * 128 + w.val; omega)]
  rfl

/-- The run, read: the result at the total, the arguments unchanged. -/
theorem run (hx : ∀ c i, Ideal.log (xarr m c i) ≠ ⊤) :
    θ_run defs (onTc (τ := τ) (main (F := Ideal))) ⟨m, fun _ => 0, ρ⟩ fun r => ∀ c : Dev nD,
      r.2.mem ((c : Thread nD τ).loc main_v16) = HistSpec.G (xarr m c) (iarr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v16 (Pipeline.mem_restRefs_of main_v16 (by decide) (by decide))).trans
          ((tail_eq m c).trans (result_eq m c (hx c))),
        ((h c).1 1).trans (((dats m 0 c).arrAt_in 1 rfl _).trans ((A_eq m c 1).trans (V_main_arg0 m c))),
        ((h c).2 main_arg1 (Pipeline.mem_restRefs_of main_arg1 (by decide) (by decide))).trans (W_main_arg1 m (dats m) c)⟩)
    (run_main m ρ)

end Cert.KernelIdeal.KValue

end
-- ==== Proof.Agree.lean ====
/-
  The two programs compute the bin index by the same host operations.

  Before its kernel region the idealized kernel's @main computes the bin index from the colour array by the very
  operations the reference's @main does (subtract −110, divide by 10, floor, clamp to 0 … 20, convert, and combine
  the two channels as a · 21 + b): the index array the region finds is the reference's index stage of the same
  argument, term for term.
-/
import proofs.«143988_j67791763800580_1_alg».proof.Proof.Gen.KernelIdeal.Frame
import proofs.«143988_j67791763800580_1_alg».proof.Proof.RefRead
import Idealize.ShloMosaic.Lib.StableHlo.Run

noncomputable section

namespace Cert.Agree

open Idealize.ShloMosaic Idealize.ShloMosaic.TcCoe Idealize.SL.Sem

variable {F : FTy → Type} [FloatOps F]

set_option maxRecDepth 8192 in
theorem idx_agree (m : (ℓ : Loc Cert.KernelIdeal.nD Cert.KernelIdeal.τ Cert.KernelIdeal.sig) → Buf (Elt F) ℓ)
    (c : Dev Cert.KernelIdeal.nD) :
    (Cert.KernelIdeal.Gen.V m c Cert.KernelIdeal.main_v13 : Cert.KernelIdeal.S8x128x128.Idx → BitVec 32)
      = Cert.ReferenceIdeal.ReadP.val_main_v13 (F := F)
          (m ((c : Thread Cert.KernelIdeal.nD Cert.KernelIdeal.τ).loc Cert.KernelIdeal.main_arg1)) := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    List.flatten_cons, List.flatten_nil, List.append_nil, List.cons_append, List.nil_append]
  after_results
  rfl

end Cert.Agree

end
-- ==== Proof.Finite.lean ====
/-
  What the precondition gives: no entry of x is +∞, so no logarithm is.

  The printed precondition is the conjunction of two `jnp.all`s, each a reduction by `and` of the comparisons
  |v| < +∞ over an input's entries. Where it holds, every entry v of x has max(v, −v) < +∞, so v is not +∞
  (nor −∞, which is not needed). On the extended reals the logarithm is +∞ only at +∞: it is −∞ at zero and, by
  convention, at the negative numbers, and a real number elsewhere.
-/
import proofs.«143988_j67791763800580_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Cert.Pre_finite_inputs Idealize.ShloMosaic Idealize.ShloMosaic.ValueIdx

variable [Facts]

instance : Subsingleton S_.Idx := ⟨fun a b => funext fun d => d.elim0⟩

/-- The pattern of +∞. -/
theorem ofBits_pos_inf : Ideal.ofBits .f32 0x7F800000#32 = (⊤ : EReal) := by simp [Ideal.ofBits, Ideal.ieee]

/-- Under the precondition no entry of the first input is +∞. -/
theorem x_ne_top (x : FVec Ideal S8x441x128x128 .f32) (y : FVec Ideal S8x2x128x128 .f32)
    (h : fn (F := Ideal) x y = fun _ => 1#1) (i : S8x441x128x128.Idx) : x i ≠ ⊤ := by
  have h0 : fn (F := Ideal) x y ix0 = 1#1 := congrFun h ix0
  dsimp only [fn] at h0
  have h1 := (IntOp.andi_eq_one.mp h0).1
  have h2 := Host.reduce_andi_all _ _ _ _ _ h1 i
  have h3 : BitVec.ofBool (decide (max (x i) (-(x i)) < Ideal.ofBits .f32 0x7F800000#32)) = 1#1 := h2
  intro e
  rw [ofBits_pos_inf, e] at h3
  simp at h3

/-- The logarithm of an extended real other than +∞ is not +∞. -/
theorem log_ne_top {v : EReal} (hv : v ≠ ⊤) : Ideal.log v ≠ ⊤ := by
  induction v using EReal.rec with
  | bot => simp
  | coe r =>
    rw [Ideal.log_coe]
    split_ifs
    · simp
    · exact EReal.coe_ne_top _
  | top => exact absurd rfl hv

end Cert.Pre_finite_inputs.Finite

end
-- ==== Proof.lean ====
/-
  Histogram-binned cross-entropy: −Σ over (n, h) of log x[n, bin(y[n,·,h,w]), h, w], per lane w.

  Both programs compute the bin index of each pixel from the two colour channels by the same host operations
  (min(20, max(0, ⌊(y + 110) / 10⌋)) per channel, converted to an integer, combined as a · 21 + b): a word below 441.

  The kernel streams the 441 bins in three chunks of 147 over a grid of 8 × 3 points. At point (n, q) it adds to an
  accumulator, for each lane w, the sum over the chunk's bins t and the rows h of log x[n, 147q + t, h, w] where the
  index at (n, h, w) is the bin 147q + t, and of 0 elsewhere; after the row's last chunk it writes 0 − accumulator
  to block n of an 8 × 1 × 128 array, whose rows the host then adds from zero. The reference gathers log x at the
  index along the bin axis, adds over (n, h) from zero and negates once.

  Over the extended reals the two agree. The masked sums over the three chunks re-index to a one-hot sum over the
  441 bins, finite sums commute freely, and the one-hot sum has exactly one non-zero term because the index is
  below 441. Negating each row's sum and then adding is negating the whole sum provided no term is +∞; that is
  where the precondition is used: x is finite, and the logarithm of a finite number is never +∞ (it is −∞ at 0 and,
  by the convention of the ideal instance, at negative numbers, which both sides treat alike).

  The frames of the two kernel programs are the generated ones; the reference's frame is its run with the result
  dropped; the idealization rewrote nothing, so `preserves` is trivial.
-/
import proofs.«143988_j67791763800580_1_alg».proof.Defs
import proofs.«143988_j67791763800580_1_alg».proof.Proof.Gen.Kernel
import proofs.«143988_j67791763800580_1_alg».proof.Proof.Gen.Kernel.Skeleton
import proofs.«143988_j67791763800580_1_alg».proof.Proof.Gen.Kernel.Launch
import proofs.«143988_j67791763800580_1_alg».proof.Proof.Gen.Kernel.Points
import proofs.«143988_j67791763800580_1_alg».proof.Proof.Gen.Kernel.Frame
import proofs.«143988_j67791763800580_1_alg».proof.Proof.Gen.KernelIdeal
import proofs.«143988_j67791763800580_1_alg».proof.Proof.Gen.KernelIdeal.Skeleton
import proofs.«143988_j67791763800580_1_alg».proof.Proof.Gen.KernelIdeal.Launch
import proofs.«143988_j67791763800580_1_alg».proof.Proof.Gen.KernelIdeal.Points
import proofs.«143988_j67791763800580_1_alg».proof.Proof.Gen.KernelIdeal.Frame
import proofs.«143988_j67791763800580_1_alg».proof.Proof.Gen.ReferenceIdeal
import proofs.«143988_j67791763800580_1_alg».proof.Proof.RefRun
import proofs.«143988_j67791763800580_1_alg».proof.Proof.RefRead
import proofs.«143988_j67791763800580_1_alg».proof.Proof.Gen.Pre_finite_inputs
import proofs.«143988_j67791763800580_1_alg».proof.Proof.RefValue
import proofs.«143988_j67791763800580_1_alg».proof.Proof.KernelValue
import proofs.«143988_j67791763800580_1_alg».proof.Proof.Agree
import proofs.«143988_j67791763800580_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end at the total of the probabilities and the bin index of the colours they agree on. -/
theorem algebraic : Cert.algebraic_KernelIdeal_ReferenceIdeal := by
  intro m ρ m' ρ' hpre hagree
  have hx : ∀ (c : Dev Cert.KernelIdeal.nD) (i : Cert.KernelIdeal.S8x441x128x128.Idx),
      Ideal.log (Cert.KernelIdeal.Blocks.xarr m c i) ≠ ⊤ := fun c i => by
    show Ideal.log (Cert.KernelIdeal.Gen.V m c Cert.KernelIdeal.main_arg0 i) ≠ ⊤
    rw [Cert.KernelIdeal.Gen.V_main_arg0]
    exact Cert.Pre_finite_inputs.Finite.log_ne_top (Cert.Pre_finite_inputs.Finite.x_ne_top _ _ (hpre c) i)
  refine ⟨fun c => Cert.HistSpec.G
      (m ((c.tc : Thread Cert.KernelIdeal.nD Cert.KernelIdeal.τ).loc Cert.KernelIdeal.main_arg0))
      (Cert.ReferenceIdeal.ReadP.val_main_v13 (F := Ideal)
        (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩)
      (Cert.KernelIdeal.KValue.run m ρ hx)
    exact congrArg₂ Cert.HistSpec.G (Cert.KernelIdeal.Gen.V_main_arg0 m c) (Cert.Agree.idx_agree m c)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v18_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
